-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S4096x64 : Shape := ⟨2, ![4096, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S16384x64 .f32) (main_arg1 : FVec F S4096x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S16384x64 : Shape := ⟨2, ![16384, 64]⟩
abbrev S4096x64 : Shape := ⟨2, ![4096, 64]⟩
abbrev S64x4096 : Shape := ⟨2, ![64, 4096]⟩
abbrev S16384x4096 : Shape := ⟨2, ![16384, 4096]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S4096x64, .f32⟩
  | .hbm, ⟨2, _⟩ => ⟨S64x4096, .f32⟩
  | .hbm, ⟨3, _⟩ => ⟨S16384x4096, .f32⟩
  | .local _ .vmem, ⟨0, _⟩ => ⟨S1024x64, .f32⟩
  | .local _ .vmem, ⟨1, _⟩ => ⟨S1024x64, .f32⟩
  | .local _ .vmem, ⟨2, _⟩ => ⟨S64x1024, .f32⟩
  | .local _ .vmem, ⟨3, _⟩ => ⟨S64x1024, .f32⟩
  | .local _ .vmem, ⟨4, _⟩ => ⟨S1024x1024, .f32⟩
  | .local _ .vmem, ⟨5, _⟩ => ⟨S1024x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S4096x64_S64x4096_1_0 : S4096x64.Transposes [1, 0] S64x4096
  inb_S1024x64_S1024x64_0_0 : ∀ a, (![0, 0] : Fin 2 → Nat) a + S1024x64.size a ≤ S1024x64.size a
  h_S1024x64 : 0 < S1024x64.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S1024x64_S1024 : S1024x64.Reduces [1] S1024
  shapeCasts_S1024_S1024x1 : S1024.ShapeCasts S1024x1
  reduces_S64x1024_S1024 : S64x1024.Reduces [0] S1024
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x4096.size a
  hwx0_1 : ∀ i : grid0.Coords, EltTy.bits .f32 = 32 ∨ (Rect.block (s := S64x4096) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S4096x64 : Shape := ⟨2, ![4096, 64]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S4096x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x64, .f32⟩
  | .hbm, ⟨7, _⟩ => ⟨S_, .f32⟩
  | .hbm, ⟨8, _⟩ => ⟨S4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S4096x64_S4096_d1 : S4096x64.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x64_S4096x64_S16384x4096_1_1_0_0_n_n_wf : DotDims.WF S16384x64 S4096x64 S16384x4096 [1] [1] [0] [0] [] []

variable [Facts₀]

def dot_S16384x64_S4096x64_S16384x4096_1_1_0_0_n_n : DotDims S16384x64 S4096x64 S16384x4096 where
  lhsContracting := [1]
  rhsContracting := [1]
  lhsNonContracting := [0]
  rhsNonContracting := [0]
  lhsBatch := []
  rhsBatch := []
  wf := dot_S16384x64_S4096x64_S16384x4096_1_1_0_0_n_n_wf

class Facts : Prop extends Facts₀ where

variable [Facts]
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.LibColumn.lean ====
/-
  A row sum kept as a column, read at an entry.

  A vector of length a viewed as an [a × 1] column holds, at (i, 0), the vector's entry i; and that column spread over b
  columns holds, at (p, c), the column's entry (p, 0) whatever c is. Together with the library's row forms these read a
  `sum(…, keepdims=True)` that is broadcast against a matrix.
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`: the unit coordinate adds nothing to the
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Spec.lean ====
/-
  The function both programs compute.

  For a point x and a centre c in 64 dimensions the squared distance is expanded as ‖x‖² + ‖c‖² − 2⟨x, c⟩, clamped below
  at zero, scaled by the (negative) width constant and exponentiated. Entry (b, u) of the result takes row b of the points
  and row u of the centres. The three float constants stay the words the programs print; only the zero word is read (as 0).
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The Gaussian of the expanded squared distance between two vectors of 64 extended reals:
    exp (w · max ((Σ xₖ² + Σ cₖ²) − 2 · Σ xₖ cₖ, 0)), with w the word of −0.01 and 2 the word of 2.0. -/
def gaussEntry (xr cr : Fin 64 → EReal) : EReal :=
  Ideal.exp (Ideal.ofBits .f32 0xBC23D70A#32 *
    max ((∑ k : Fin 64, xr k * xr k + ∑ k : Fin 64, cr k * cr k)
          - Ideal.ofBits .f32 0x40000000#32 * ∑ k : Fin 64, xr k * cr k) 0)

/-- The whole result: entry (b, u) from row b of the 16384 points and row u of the 4096 centres. -/
def gauss (x : (⟨2, ![16384, 64]⟩ : Shape).Idx → EReal) (c : (⟨2, ![4096, 64]⟩ : Shape).Idx → EReal) :
    (⟨2, ![16384, 4096]⟩ : Shape).Idx → EReal :=
  fun i => gaussEntry (fun k => x (ix2 (i 0) k)) (fun k => c (ix2 (i 1) k))

theorem gauss_apply (x : (⟨2, ![16384, 64]⟩ : Shape).Idx → EReal) (c : (⟨2, ![4096, 64]⟩ : Shape).Idx → EReal)
    (b : Fin 16384) (u : Fin 4096) :
    gauss x c (ix2 b u) = gaussEntry (fun k => x (ix2 b k)) (fun k => c (ix2 u k)) := rfl

end Cert.Rbf

end
-- ==== Proof.Tile.lean ====
/-
  One tile of the kernel, read at an entry.

  A grid point holds a tile of 1024 points (rows of 64 coordinates) and a tile of 1024 centres laid out TRANSPOSED
  (64 rows, one column per centre). What it stores at (p, q) has three parts that are not pointwise: the squared norm of
  point p — a sum along the row, kept as a column and spread over the columns —, the squared norm of centre q — a sum
  down the column, kept as a row and spread over the rows —, and the inner product of row p with column q, the matrix
  product into a zero accumulator (the operands' change of format to sixteen bits is the identity on extended reals).
  Everything else is pointwise, so the stored entry is the Gaussian of point p and centre q.
-/
import proofs.«160498_j90787018703299_1_alg».proof.Proof.Gen.KernelIdeal.Skeleton
import proofs.«160498_j90787018703299_1_alg».proof.Proof.LibDense
import proofs.«160498_j90787018703299_1_alg».proof.Proof.LibColumn
import proofs.«160498_j90787018703299_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Tile

open Cert.KernelIdeal Cert.KernelIdeal.Gen Idealize.ShloMosaic Idealize.ShloMosaic.ValueIdx

/-- The points' squared norms: the sum of squares along each row, as a column, spread over 1024 columns. -/
def rowNorm (x0 : FVec Ideal S1024x64 .f32) : FVec Ideal S1024x1024 .f32 :=
  broadcastTo S1024x1024 (shapeCast S1024x1 (multiReduction .add [1] S1024 (mulf x0 x0) 0x00000000#32 reduces_S1024x64_S1024 (.inl rfl) rfl)
    shapeCasts_S1024_S1024x1) broadcasts_S1024x1_S1024x1024

/-- The centres' squared norms: the sum of squares down each column of the transposed tile, as a row, spread over 1024 rows. -/
def colNorm (x1 : FVec Ideal S64x1024 .f32) : FVec Ideal S1024x1024 .f32 :=
  broadcastTo S1024x1024 (shapeCast S1x1024 (multiReduction .add [0] S1024
      (mulf (shapeCast S64x1024 x1 shapeCasts_S64x1024_S64x1024) (shapeCast S64x1024 x1 shapeCasts_S64x1024_S64x1024))
      0x00000000#32 reduces_S64x1024_S1024 (.inl rfl) rfl)
    shapeCasts_S1024_S1x1024) broadcasts_S1x1024_S1024x1024

/-- The inner products: the points' tile times the transposed centres' tile, into zero. -/
def cross (x0 : FVec Ideal S1024x64 .f32) (x1 : FVec Ideal S64x1024 .f32) : FVec Ideal S1024x1024 .f32 :=
  matmul dot_S1024x64_S64x1024_S1024x1024_1_0_0_1_n_n none (truncf .bf16 x0 bitsLt_bf16_f32)
    (truncf .bf16 (shapeCast S64x1024 x1 shapeCasts_S64x1024_S64x1024) bitsLt_bf16_f32) (constant S1024x1024 .f32 0x00000000#32)

/-- Row p's squared norm, at every column q. -/
theorem rowNorm_apply (x0 : FVec Ideal S1024x64 .f32) (p q : Fin 1024) :
    rowNorm x0 (ix2 p q) = ∑ k : Fin 64, x0 (ix2 p k) * x0 (ix2 p k) := by
  unfold rowNorm
  refine (LibColumn.broadcastTo_a1_ab_apply _ _ p q).trans ?_
  refine (LibColumn.shapeCast_a_a1_apply _ _ p 0).trans ?_
  refine (Ideal.multiReduction_add_single (mulf x0 x0) 0x00000000#32 reduces_S1024x64_S1024 (.inl rfl) rfl (ix1 p)).trans ?_
  refine Finset.sum_congr rfl fun k _ => ?_
  have e : reduces_S1024x64_S1024.lift (ix1 p) k = ix2 p k :=
    funext fun a => Fin.ext (by match a with | ⟨0, _⟩ => rfl | ⟨1, _⟩ => rfl)
  rw [e]
  rfl

/-- Column q's squared norm, at every row p. -/
theorem colNorm_apply (x1 : FVec Ideal S64x1024 .f32) (p q : Fin 1024) :
    colNorm x1 (ix2 p q) = ∑ k : Fin 64, x1 (ix2 k q) * x1 (ix2 k q) := by
  unfold colNorm
  rw [shapeCast_self]
  refine (broadcastTo_1b_ab_apply _ _ p q).trans ?_
  refine (shapeCast_a_1a_apply _ _ 0 q).trans ?_
  refine (Ideal.multiReduction_add_single (mulf x1 x1) 0x00000000#32 reduces_S64x1024_S1024 (.inl rfl) rfl (ix1 q)).trans ?_
  refine Finset.sum_congr rfl fun k _ => ?_
  have e : reduces_S64x1024_S1024.lift (ix1 q) k = ix2 k q :=
    funext fun a => Fin.ext (by match a with | ⟨0, _⟩ => rfl | ⟨1, _⟩ => rfl)
  rw [e]
  rfl

/-- Row p of the points against column q of the transposed centres. -/
theorem cross_apply (x0 : FVec Ideal S1024x64 .f32) (x1 : FVec Ideal S64x1024 .f32) (p q : Fin 1024) :
    cross x0 x1 (ix2 p q) = ∑ k : Fin 64, x0 (ix2 p k) * x1 (ix2 k q) := by
  unfold cross
  rw [shapeCast_self]
  exact LibDense.matmul_zero_apply dot_S1024x64_S64x1024_S1024x1024_1_0_0_1_n_n none rfl rfl rfl rfl rfl rfl
    (truncf .bf16 x0 bitsLt_bf16_f32) (truncf .bf16 x1 bitsLt_bf16_f32) p q

/-- What a grid point stores at (p, q) is the Gaussian of its point p and its centre q. -/
theorem stored_apply (x0 : FVec Ideal S1024x64 .f32) (x1 : FVec Ideal S64x1024 .f32) (p q : Fin 1024) :
    k0_pay1 (F := Ideal) x0 x1 (ix2 p q) = Rbf.gaussEntry (fun k => x0 (ix2 p k)) (fun k => x1 (ix2 k q)) := by
  have h : k0_pay1 (F := Ideal) x0 x1 (ix2 p q)
      = Ideal.exp (Ideal.ofBits .f32 0xBC23D70A#32 *
          max ((rowNorm x0 (ix2 p q) + colNorm x1 (ix2 p q)) - Ideal.ofBits .f32 0x40000000#32 * cross x0 x1 (ix2 p q))
            (Ideal.ofBits .f32 0x00000000#32)) := rfl
  rw [h, rowNorm_apply, colNorm_apply, cross_apply, Ideal.ofBits_zero_f32]
  rfl

end Cert.KernelIdeal.Tile

end
-- ==== Proof.Array.lean ====
/-
  From tiles to the whole array.

  The grid has 16 × 4 points. Point (i, j) reads rows 1024·i … 1024·i + 1023 of the points (all 64 coordinates), and
  columns 1024·j … 1024·j + 1023 of the TRANSPOSED centres (all 64 rows) — the transpose is the one host operation
  before the region, so column u of it is row u of the centres —, and writes tile (i, j) of the result. By the tile's
  entry formula, what it writes at (p, q) is the Gaussian of point 1024·i + p and centre 1024·j + q: each point writes its
  block of ONE whole-array function. The 64 tiles cover the result (entry (b, u) lies in tile (b / 1024, u / 1024)),
  so after the run the result array is that function.
-/
import proofs.«160498_j90787018703299_1_alg».proof.Proof.Gen.KernelIdeal.Value
import proofs.«160498_j90787018703299_1_alg».proof.Proof.Tile
import proofs.«160498_j90787018703299_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The points and the centres as launched. -/
abbrev pts (c : Dev nD) : FVec Ideal S16384x64 .f32 := m ((c : Thread nD τ).loc main_arg0)
abbrev ctr (c : Dev nD) : FVec Ideal S4096x64 .f32 := m ((c : Thread nD τ).loc main_arg1)

/-! ## One entry of a tile against one entry of the whole function -/

/-- If row (j 0) of a points' tile is row (i 0) of the points, and column (j 1) of a transposed centres' tile is row (i 1)
    of the centres, the tile's stored entry j is the whole function's entry i. -/
theorem tile_entry (X : FVec Ideal S16384x64 .f32) (C : FVec Ideal S4096x64 .f32)
    (x0 : FVec Ideal S1024x64 .f32) (x1 : FVec Ideal S64x1024 .f32) (j : S1024x1024.Idx) (i : S16384x4096.Idx)
    (h0 : ∀ k : Fin 64, x0 (ix2 (j 0) k) = X (ix2 (i 0) k)) (h1 : ∀ k : Fin 64, x1 (ix2 k (j 1)) = C (ix2 (i 1) k)) :
    k0_pay1 (F := Ideal) x0 x1 j = Rbf.gauss X C i :=
  calc k0_pay1 (F := Ideal) x0 x1 j
      = k0_pay1 (F := Ideal) x0 x1 (ix2 (j 0) (j 1)) := congrArg _ (eq_ix2 j)
    _ = Rbf.gaussEntry (fun k => x0 (ix2 (j 0) k)) (fun k => x1 (ix2 k (j 1))) := Tile.stored_apply x0 x1 (j 0) (j 1)
    _ = Rbf.gaussEntry (fun k => X (ix2 (i 0) k)) (fun k => C (ix2 (i 1) k)) := by rw [funext h0, funext h1]
    _ = Rbf.gauss X C i := rfl

/-- The transposed centres at an index whose row is k and whose column is u: row u of the centres at coordinate k. -/
theorem transposed_entry (C : FVec Ideal S4096x64 .f32) (y : S64x4096.Idx) (u : Fin 4096) (k : Fin 64)
    (h0 : (y 0).val = k.val) (h1 : (y 1).val = u.val) :
    transpose S64x4096 [1, 0] C transposes_S4096x64_S64x4096_1_0 y = C (ix2 u k) :=
  transpose_apply [1, 0] C transposes_S4096x64_S64x4096_1_0 y (ix2 u k) fun b =>
    match b with
    | ⟨0, _⟩ => h0.symm
    | ⟨1, _⟩ => h1.symm

/-! ## The array the second window stages -/

/-- The region finds, where the second window reads, the centres transposed: the one host operation before it. -/
theorem centresT (c : Dev nD) :
    (V m c main_v0 : S64x4096.Idx → EReal) = transpose S64x4096 [1, 0] (ctr m c) transposes_S4096x64_S64x4096_1_0 := by
  dsimp only [V, hostOps0]
  after_results

/-! ## The index maps, decided over the grid -/

theorem hz : (![0, 0] : Fin 2 → Nat) = fun _ => 0 := funext fun a => by fin_cases a <;> rfl

/-- At every point: the points' tile is on the result tile's block row and takes all 64 coordinates; the centres' tile takes
    all 64 rows and is on the result tile's block column; the block row is below 16 and the block column below 4. -/
theorem tile_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 15 ∧ win0_2.index t (1 : Fin 2) ≤ 3 :=
  (by decide +kernel : ∀ t : Fin grid0.N, _)

/-- Every tile of the result is some point's. -/
theorem tile_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-! ## What a point writes back -/

/-- Point t writes back its block of the Gaussian of the points and the centres as launched. -/
theorem written_eq (c : Dev nD) (t : Fin cfg0.N) :
    (dats m 0 c).flushed 2 t = ((cfg0.win 2).blk t).view.read (Elt Ideal) (Rbf.gauss (pts m c) (ctr m c)) := by
  rw [Value.flushed2]
  unfold out0_2
  rw [View.canon_unit_zero hz]
  simp only [View.ld_unit_zero (S := S1024x64) hz, View.ld_unit_zero (S := S64x1024) hz]
  obtain ⟨e0, e1, e2, e3, -, -⟩ := tile_indices t
  funext j
  refine tile_entry (pts m c) (ctr m c) (iblk m c 0 t) (iblk m c 1 t) j (((cfg0.win 2).blk t).view.emb j) ?_ ?_
  · intro k
    show V m c main_arg0 (((cfg0.win 0).blk t).view.emb (ix2 (j 0) k)) = pts m c (ix2 ((((cfg0.win 2).blk t).view.emb j) 0) k)
    rw [V_main_arg0]
    refine congrArg (pts m c) (funext fun a => Fin.ext ?_)
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 64 + 1 * k.val = k.val
      omega
  · intro k
    show V m c main_v0 (((cfg0.win 1).blk t).view.emb (ix2 k (j 1))) = ctr m c (ix2 ((((cfg0.win 2).blk t).view.emb j) 1) k)
    rw [centresT]
    refine transposed_entry (ctr m c) _ _ k ?_ ?_
    · show win0_1.index t (0 : Fin 2) * 64 + 1 * k.val = k.val
      omega
    · show win0_1.index t (1 : Fin 2) * 1024 + 1 * (j 1).val = win0_2.index t (1 : Fin 2) * 1024 + 1 * (j 1).val
      omega

/-! ## The tiles cover the result -/

/-- An index of the result is in point t's tile iff each coordinate is in the tile's range on its axis. -/
theorem mem_tile (t : Fin cfg0.N) (i : S16384x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

/-- Entry (b, u) lies in the tile of block row b / 1024 and block column u / 1024, which some point writes back. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := tile_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-! ## The result array, and the run -/

/-- After the run the result array is the Gaussian of the points and the centres as launched. -/
theorem result_eq (c : Dev nD) : (dats m 0 c).arrAt 2 cfg0.N = Rbf.gauss (pts m c) (ctr m c) :=
  (dats m 0 c).arrAt_eq_of_cover 2 (Rbf.gauss (pts m c) (ctr m c)) (fun t _ => written_eq m c t) covered

/-- The kernel's run with its result named: the Gaussian of the arguments, which end unchanged. -/
theorem run : θ_run defs (onTc (τ := τ) (main (F := Ideal))) ⟨m, fun _ => 0, ρ⟩ fun r => ∀ c : Dev nD,
      r.2.mem ((c : Thread nD τ).loc main_v1) = Rbf.gauss (pts m c) (ctr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Value.run_blocks m ρ)

end Cert.KernelIdeal.Whole

end
-- ==== Proof.Reference.lean ====
/-
  The reference, read at an entry.

  The host program squares and sums each row of the points and of the centres (each sum started from the zero word, which
  is 0), spreads the two norm vectors over the 16384 × 4096 result, takes the general dot that contracts the two
  64-coordinate axes, and finishes pointwise. Entry (b, u) is therefore the Gaussian of row b of the points and row u of
  the centres.
-/
import proofs.«160498_j90787018703299_1_alg».proof.Proof.Gen.ReferenceIdeal.Read
import proofs.«160498_j90787018703299_1_alg».proof.Proof.Spec
import Idealize.ShloMosaic.PureOps.Ideal.Laws
import Idealize.ShloMosaic.Lib.ValueIdx

noncomputable section

namespace Cert.ReferenceIdeal.Entry

open Cert.ReferenceIdeal Cert.ReferenceIdeal.Gen Cert.ReferenceIdeal.Read Idealize.ShloMosaic Idealize.ShloMosaic.ValueIdx

/-- The row whose squares the points' norm at result index i sums. -/
theorem idx_xnorm (i : S16384x4096.Idx) (k : Fin 64) : idx_main_v1 (idx_main_v2 (idx_main_v7 i)) k = ix2 (i 0) k :=
  funext fun a => Fin.ext (by match a with | ⟨0, _⟩ => rfl | ⟨1, _⟩ => rfl)

/-- The row whose squares the centres' norm at result index i sums. -/
theorem idx_cnorm (i : S16384x4096.Idx) (k : Fin 64) : idx_main_v4 (idx_main_v6 (idx_main_v8 i)) k = ix2 (i 1) k :=
  funext fun a => Fin.ext (by match a with | ⟨0, _⟩ => rfl | ⟨1, _⟩ => rfl)

/-- The dot's left factor is row (i 0) of the points, -/
theorem idx_dotl (i : S16384x4096.Idx) (k : Fin 64) : lidx_main_v5 i k = ix2 (i 0) k :=
  funext fun a => Fin.ext (by match a with | ⟨0, _⟩ => rfl | ⟨1, _⟩ => rfl)

/-- and its right factor row (i 1) of the centres. -/
theorem idx_dotr (i : S16384x4096.Idx) (k : Fin 64) : ridx_main_v5 i k = ix2 (i 1) k :=
  funext fun a => Fin.ext (by match a with | ⟨0, _⟩ => rfl | ⟨1, _⟩ => rfl)

/-- The reference's result is the Gaussian of the points' rows and the centres' rows. -/
theorem result_eq (x : FVec Ideal S16384x64 .f32) (c : FVec Ideal S4096x64 .f32) :
    val_main_v17 (F := Ideal) x c = Rbf.gauss x c := by
  funext i
  rw [val_main_v17_apply, val_main_v16_apply, val_main_v15_apply, val_main_cst_3_apply, val_main_v14_apply,
    val_main_v13_apply, val_main_cst_2_apply, val_main_v12_apply, val_main_v9_apply, val_main_v7_apply, val_main_v2_apply,
    val_main_v1_apply, val_main_v8_apply, val_main_v6_apply, val_main_v4_apply, val_main_v11_apply, val_main_v10_apply,
    val_main_cst_1_apply, val_main_v5_apply]
  simp only [val_main_v0_apply, val_main_v3_apply, val_main_cst_apply, val_main_cst_0_apply, idx_xnorm, idx_cnorm, idx_dotl,
    idx_dotr, Ideal.hostUnary_exp_def, Ideal.mulf_def, Ideal.maximumf_def, Ideal.subf_def, Ideal.addf_def, Ideal.ofBits_def,
    Ideal.ofBits_zero_f32, zero_add]
  rfl

end Cert.ReferenceIdeal.Entry

end
-- ==== Proof.lean ====
/-
  A radial-basis layer: the Gaussian exp(w · max(‖x − c‖², 0)) of 16384 points against 4096 centres in 64 dimensions,
  with the squared distance expanded as ‖x‖² + ‖c‖² − 2⟨x, c⟩ and w the float nearest −0.01.

  The kernel works tile by tile on a 16 × 4 grid: 1024 points against 1024 centres, the centres passed transposed so
  that their norms are sums down columns and the inner products a plain matrix product (whose operands' change to a
  sixteen-bit format is the identity on extended reals). The reference takes both norms along rows and the inner
  products by a dot that contracts the two coordinate axes. Both group the sums alike — (‖x‖² + ‖c‖²) − 2·⟨x, c⟩ — and
  use the same three constant words, so at exact arithmetic they are ONE function, entry by entry; no law of the extended
  reals beyond 0 + s = s is used, and the inputs' finiteness is never needed.

  The pieces: Proof/Spec.lean states the function; Proof/Tile.lean reads what a grid point stores at an entry;
  Proof/Array.lean assembles the 64 tiles into the whole result; Proof/Reference.lean reads the reference at an entry.
  The idealization rewrote no operation, so the kernel's idealization is the kernel's own text.
-/
import proofs.«160498_j90787018703299_1_alg».proof.Defs
import proofs.«160498_j90787018703299_1_alg».proof.Proof.Gen.Kernel
import proofs.«160498_j90787018703299_1_alg».proof.Proof.Gen.Kernel.Skeleton
import proofs.«160498_j90787018703299_1_alg».proof.Proof.Gen.Kernel.Launch
import proofs.«160498_j90787018703299_1_alg».proof.Proof.Gen.Kernel.Points
import proofs.«160498_j90787018703299_1_alg».proof.Proof.Gen.Kernel.Frame
import proofs.«160498_j90787018703299_1_alg».proof.Proof.Gen.KernelIdeal
import proofs.«160498_j90787018703299_1_alg».proof.Proof.Gen.KernelIdeal.Skeleton
import proofs.«160498_j90787018703299_1_alg».proof.Proof.Gen.KernelIdeal.Launch
import proofs.«160498_j90787018703299_1_alg».proof.Proof.Gen.KernelIdeal.Points
import proofs.«160498_j90787018703299_1_alg».proof.Proof.Gen.KernelIdeal.Frame
import proofs.«160498_j90787018703299_1_alg».proof.Proof.Gen.ReferenceIdeal
import proofs.«160498_j90787018703299_1_alg».proof.Proof.Gen.Pre_finite_inputs
import proofs.«160498_j90787018703299_1_alg».proof.Proof.Gen.KernelIdeal.Value
import proofs.«160498_j90787018703299_1_alg».proof.Proof.Gen.ReferenceIdeal.Run
import proofs.«160498_j90787018703299_1_alg».proof.Proof.Gen.ReferenceIdeal.Read
import proofs.«160498_j90787018703299_1_alg».proof.Proof.Array
import proofs.«160498_j90787018703299_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at exact arithmetic. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- From memories that agree on the points and the centres, the kernel's result array and the reference's are the same
    Gaussian, entry by entry. -/
theorem algebraic : Cert.algebraic_KernelIdeal_ReferenceIdeal := by
  intro m ρ m' ρ' _ hagree
  refine ⟨fun c => Cert.Rbf.gauss (Cert.KernelIdeal.Whole.pts m c) (Cert.KernelIdeal.Whole.ctr m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Entry.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
